-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x256 : Shape := ⟨3, ![512, 512, 256]⟩
abbrev S256x512 : Shape := ⟨2, ![256, 512]⟩
abbrev S256 : Shape := ⟨1, ![256]⟩
abbrev S_ : Shape := ⟨0, ![]⟩

class Facts : Prop where
  bcast_S_S512x512x256 : S_.BroadcastsInDim S512x512x256 (![] : Fin 0 → Fin S512x512x256.rank)
  reducesTo_S512x512x256_S_d0_1_2 : S512x512x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S512x512x256 .f32) (main_arg1 : FVec F S256x512 .f32) (main_arg2 : FVec F S256 .f32) : IVec S_ 1 :=
  let main_v0 : FVec F S512x512x256 .f32 := Host.absf main_arg0
  let main_cst : FVec F S_ .f32 := constant S_ .f32 0x7F800000#32
  let main_v1 : FVec F S512x512x256 .f32 := broadcastInDim S512x512x256 ![] bcast_S_S512x512x256 main_cst
  let main_v2 : IVec S512x512x256 1 := cmpf .olt main_v0 main_v1
  let main_c : IVec S_ 1 := constantI S_ 1 1#1
  let main_v3 : IVec S_ 1 := (fun x v => Host.reduce IntOp.andi x v reducesTo_S512x512x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S512x512x256 : Shape := ⟨3, ![512, 512, 256]⟩
abbrev S256x512 : Shape := ⟨2, ![256, 512]⟩
abbrev S256 : Shape := ⟨1, ![256]⟩
abbrev S256x256 : Shape := ⟨2, ![256, 256]⟩
abbrev S512x256 : Shape := ⟨2, ![512, 256]⟩
abbrev S128x64x256 : Shape := ⟨3, ![128, 64, 256]⟩
abbrev S128x256 : Shape := ⟨2, ![128, 256]⟩
abbrev S64x128x256 : Shape := ⟨3, ![64, 128, 256]⟩
abbrev S64x256 : Shape := ⟨2, ![64, 256]⟩
abbrev S64x1x256 : Shape := ⟨3, ![64, 1, 256]⟩
abbrev S1x128x256 : Shape := ⟨3, ![1, 128, 256]⟩
abbrev S1x1x256 : Shape := ⟨3, ![1, 1, 256]⟩

abbrev nBuf : Space → Nat
  | .hbm => 10
  | .vmem => 17
  | .smem => 0
  | _ => 0

abbrev bufTy : (tb : Table) → Fin (tcTables nBuf tb) → BufTy
  | .hbm, ⟨0, _⟩ => ⟨S512x512x256, .f32⟩
  | .hbm, ⟨1, _⟩ => ⟨S256x512, .f32⟩
  | .hbm, ⟨2, _⟩ => ⟨S256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S512x256, .f32⟩
  | .hbm, ⟨8, _⟩ => ⟨S512x256, .f32⟩
  | .hbm, ⟨9, _⟩ => ⟨S512x512x256, .f32⟩
  | .local _ .vmem, ⟨0, _⟩ => ⟨S128x64x256, .f32⟩
  | .local _ .vmem, ⟨1, _⟩ => ⟨S128x64x256, .f32⟩
  | .local _ .vmem, ⟨2, _⟩ => ⟨S128x256, .f32⟩
  | .local _ .vmem, ⟨3, _⟩ => ⟨S128x256, .f32⟩
  | .local _ .vmem, ⟨4, _⟩ => ⟨S64x128x256, .f32⟩
  | .local _ .vmem, ⟨5, _⟩ => ⟨S64x128x256, .f32⟩
  | .local _ .vmem, ⟨6, _⟩ => ⟨S128x256, .f32⟩
  | .local _ .vmem, ⟨7, _⟩ => ⟨S128x256, .f32⟩
  | .local _ .vmem, ⟨8, _⟩ => ⟨S64x256, .f32⟩
  | .local _ .vmem, ⟨9, _⟩ => ⟨S64x256, .f32⟩
  | .local _ .vmem, ⟨10, _⟩ => ⟨S128x256, .f32⟩
  | .local _ .vmem, ⟨11, _⟩ => ⟨S128x256, .f32⟩
  | .local _ .vmem, ⟨12, _⟩ => ⟨S256x256, .f32⟩
  | .local _ .vmem, ⟨13, _⟩ => ⟨S256x256, .f32⟩
  | .local _ .vmem, ⟨14, _⟩ => ⟨S256, .f32⟩
  | .local _ .vmem, ⟨15, _⟩ => ⟨S64x128x256, .f32⟩
  | .local _ .vmem, ⟨16, _⟩ => ⟨S64x128x256, .f32⟩
  | _, _ => ⟨S512x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S64x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S64x128x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  slices_S256x512_S256x256_0_0 : S256x512.Slices ![0, 0] S256x256
  slices_S256x512_S256x256_0_256 : S256x512.Slices ![0, 256] S256x256
  transposes_S256x256_S256x256_1_0 : S256x256.Transposes [1, 0] S256x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x64x256_S128x64x256_0_0_0 : ∀ a, (![0, 0, 0] : Fin 3 → Nat) a + S128x64x256.size a ≤ S128x64x256.size a
  h_S128x64x256 : 0 < S128x64x256.numel
  reduces_S128x64x256_S128x256 : S128x64x256.Reduces [1] S128x256
  inb_S64x128x256_S64x128x256_0_0_0 : ∀ a, (![0, 0, 0] : Fin 3 → Nat) a + S64x128x256.size a ≤ S64x128x256.size a
  h_S64x128x256 : 0 < S64x128x256.numel
  reduces_S64x128x256_S128x256 : S64x128x256.Reduces [0] S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S64x256_S64x1x256 : S64x256.ShapeCasts S64x1x256
  shapeCasts_S128x256_S1x128x256 : S128x256.ShapeCasts S1x128x256
  broadcasts_S64x1x256_S64x128x256 : S64x1x256.Broadcasts S64x128x256
  broadcasts_S1x128x256_S64x128x256 : S1x128x256.Broadcasts S64x128x256
  inb_S256_S256_0 : ∀ a, (![0] : Fin 1 → Nat) a + S256.size a ≤ S256.size a
  h_S256 : 0 < S256.numel
  shapeCasts_S256_S1x1x256 : S256.ShapeCasts S1x1x256
  broadcasts_S1x1x256_S64x128x256 : S1x1x256.Broadcasts S64x128x256
  dot_S64x256_S256x256_S64x256_1_0_0_1_n_n_wf : DotDims.WF S64x256 S256x256 S64x256 [1] [0] [0] [1] [] []
  dot_S128x256_S256x256_S128x256_1_0_0_1_n_n_wf : DotDims.WF S128x256 S256x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x256.size a ≤ S512x512x256.size a
  hwx0_0 : ∀ i : grid0.Coords, EltTy.bits .f32 = 32 ∨ (Rect.block (s := S512x512x256) S128x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S512x256.size a
  hwx0_1 : ∀ i : grid0.Coords, EltTy.bits .f32 = 32 ∨ (Rect.block (s := S512x256) S128x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128x256.size a ≤ S512x512x256.size a
  hwx1_0 : ∀ i : grid1.Coords, EltTy.bits .f32 = 32 ∨ (Rect.block (s := S512x512x256) S64x128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S512x256.size a
  hwx1_1 : ∀ i : grid1.Coords, EltTy.bits .f32 = 32 ∨ (Rect.block (s := S512x256) S128x256.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x256.size a ≤ S512x256.size a
  hwx2_0 : ∀ i : grid2.Coords, EltTy.bits .f32 = 32 ∨ (Rect.block (s := S512x256) S64x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S512x256.size a
  hwx2_1 : ∀ i : grid2.Coords, EltTy.bits .f32 = 32 ∨ (Rect.block (s := S512x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S64x128x256.size a ≤ S512x512x256.size a
  hwx2_5 : ∀ i : grid2.Coords, EltTy.bits .f32 = 32 ∨ (Rect.block (s := S512x512x256) S64x128x256.size (cc2_transform_5 i) (hinb2_5 i)).WholeWords (EltTy.packing .f32)

variable [Facts₀]

def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf

abbrev win0_0 : Pipeline.Window sig grid0 :=
  Pipeline.Window.ofSpec (Memref.whole main_arg0) S128x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S64x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S64x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S128x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S64x128x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S512x512x256 : Shape := ⟨3, ![512, 512, 256]⟩
abbrev S256x512 : Shape := ⟨2, ![256, 512]⟩
abbrev S256 : Shape := ⟨1, ![256]⟩
abbrev S_ : Shape := ⟨0, ![]⟩
abbrev S512x256 : Shape := ⟨2, ![512, 256]⟩
abbrev S256x256 : Shape := ⟨2, ![256, 256]⟩
abbrev S512x1x256 : Shape := ⟨3, ![512, 1, 256]⟩
abbrev S1x512x256 : Shape := ⟨3, ![1, 512, 256]⟩
abbrev S1x1x256 : Shape := ⟨3, ![1, 1, 256]⟩

abbrev nBuf : Space → Nat
  | .hbm => 19
  | .vmem => 0
  | .smem => 0
  | _ => 0

abbrev bufTy : (tb : Table) → Fin (tcTables nBuf tb) → BufTy
  | .hbm, ⟨0, _⟩ => ⟨S512x512x256, .f32⟩
  | .hbm, ⟨1, _⟩ => ⟨S256x512, .f32⟩
  | .hbm, ⟨2, _⟩ => ⟨S256, .f32⟩
  | .hbm, ⟨3, _⟩ => ⟨S_, .f32⟩
  | .hbm, ⟨4, _⟩ => ⟨S512x256, .f32⟩
  | .hbm, ⟨5, _⟩ => ⟨S_, .f32⟩
  | .hbm, ⟨6, _⟩ => ⟨S512x256, .f32⟩
  | .hbm, ⟨7, _⟩ => ⟨S256x256, .f32⟩
  | .hbm, ⟨8, _⟩ => ⟨S256x256, .f32⟩
  | .hbm, ⟨9, _⟩ => ⟨S512x256, .f32⟩
  | .hbm, ⟨10, _⟩ => ⟨S512x256, .f32⟩
  | .hbm, ⟨11, _⟩ => ⟨S512x1x256, .f32⟩
  | .hbm, ⟨12, _⟩ => ⟨S1x512x256, .f32⟩
  | .hbm, ⟨13, _⟩ => ⟨S512x512x256, .f32⟩
  | .hbm, ⟨14, _⟩ => ⟨S512x512x256, .f32⟩
  | .hbm, ⟨15, _⟩ => ⟨S512x512x256, .f32⟩
  | .hbm, ⟨16, _⟩ => ⟨S1x1x256, .f32⟩
  | .hbm, ⟨17, _⟩ => ⟨S512x512x256, .f32⟩
  | .hbm, ⟨18, _⟩ => ⟨S512x512x256, .f32⟩
  | _, _ => ⟨S512x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S512x512x256_S512x256_d1 : S512x512x256.ReducesTo [1] S512x256
  h_S_ : 0 < S_.numel
  reducesTo_S512x512x256_S512x256_d0 : S512x512x256.ReducesTo [0] S512x256
  slices_S256x512_S256x256_0_0 : S256x512.Slices ![0, 0] S256x256
  slices_S256x512_S256x256_0_256 : S256x512.Slices ![0, 256] S256x256
  bcast_S512x256_S512x1x256_0_2 : S512x256.BroadcastsInDim S512x1x256 (![0, 2] : Fin 2 → Fin S512x1x256.rank)
  bcast_S512x256_S1x512x256_1_2 : S512x256.BroadcastsInDim S1x512x256 (![1, 2] : Fin 2 → Fin S1x512x256.rank)
  bcast_S512x1x256_S512x512x256_0_1_2 : S512x1x256.BroadcastsInDim S512x512x256 (![0, 1, 2] : Fin 3 → Fin S512x512x256.rank)
  bcast_S1x512x256_S512x512x256_0_1_2 : S1x512x256.BroadcastsInDim S512x512x256 (![0, 1, 2] : Fin 3 → Fin S512x512x256.rank)
  bcast_S256_S1x1x256_2 : S256.BroadcastsInDim S1x1x256 (![2] : Fin 1 → Fin S1x1x256.rank)
  bcast_S1x1x256_S512x512x256_0_1_2 : S1x1x256.BroadcastsInDim S512x512x256 (![0, 1, 2] : Fin 3 → Fin S512x512x256.rank)
  dot_S512x256_S256x256_S512x256_1_1_0_0_n_n_wf : DotDims.WF S512x256 S256x256 S512x256 [1] [1] [0] [0] [] []

variable [Facts₀]

def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

class Facts : Prop extends Facts₀ where

variable [Facts]
-- ==== Proof.Spec.lean ====
/-
  What the three passes compute, as functions of the argument arrays over the extended reals, and the one law of
  maxima the blocked passes rest on.

  For x of shape [512, 512, 256], W of shape [256, 512] and b of shape [256] the result at (t, s, g) is

      (Σ_f rowMax x t f · W[g, f])  +  (Σ_f colMax x s f · W[g, 256 + f])  +  b[g],

  where rowMax x t f is the maximum, from −∞, of x[t, ·, f] over the middle axis and colMax x s f the maximum, from
  −∞, of x[·, s, f] over the first axis. The maxima are taken block by block: an axis of 512 entries is walked in
  consecutive blocks, and the maximum from −∞ of the first a + b entries is the larger of the maximum of the first a
  and the maximum of the next b (`prefMax_add`); none of the entries give −∞ (`prefMax_zero`), all of them the
  whole maximum (`prefMax_all`). Only commutativity, associativity and idempotence of `max` are used, so nothing
  here asks the entries to be finite.
-/
import Idealize.ShloMosaic.Lib.ValueIdx

noncomputable section

open scoped BigOperators

namespace Cert.Pool

open Idealize.ShloMosaic Idealize.ShloMosaic.ValueIdx

/-! ## Maxima from −∞ over an initial stretch of an axis -/

/-- The maximum, from −∞, of the entries of `g` at the positions below `a`. -/
def prefMax {n : ℕ} (g : Fin n → EReal) (a : ℕ) : EReal :=
  (Finset.univ.filter fun s : Fin n => s.val < a).fold max ⊥ g

theorem prefMax_eq_sup {n : ℕ} (g : Fin n → EReal) (a : ℕ) :
    prefMax g a = (Finset.univ.filter fun s : Fin n => s.val < a).sup g := rfl

/-- No entries: −∞. -/
theorem prefMax_zero {n : ℕ} (g : Fin n → EReal) : prefMax g 0 = ⊥ := by
  unfold prefMax
  rw [Finset.filter_false_of_mem (fun s _ => Nat.not_lt_zero _)]
  rfl

/-- All entries: the maximum over the whole axis. -/
theorem prefMax_all {n : ℕ} (g : Fin n → EReal) : prefMax g n = (Finset.univ : Finset (Fin n)).fold max ⊥ g := by
  unfold prefMax
  rw [Finset.filter_true_of_mem (fun s _ => s.isLt)]

/-- The first `a + b` entries: the larger of the maximum of the first `a` and the maximum of the next `b`. -/
theorem prefMax_add {n : ℕ} (g : Fin n → EReal) (a b : ℕ) (hab : a + b ≤ n) :
    prefMax g (a + b)
      = max (prefMax g a) ((Finset.univ : Finset (Fin b)).fold max ⊥ fun k => g ⟨a + k.val, by have := k.isLt; omega⟩) := by
  have hsplit : (Finset.univ.filter fun s : Fin n => s.val < a + b)
      = (Finset.univ.filter fun s : Fin n => s.val < a)
        ∪ (Finset.univ : Finset (Fin b)).image (fun k => (⟨a + k.val, by have := k.isLt; omega⟩ : Fin n)) := by
    ext s
    simp only [Finset.mem_filter, Finset.mem_univ, true_and, Finset.mem_union, Finset.mem_image]
    constructor
    · intro h
      by_cases hs : s.val < a
      · exact Or.inl hs
      · exact Or.inr ⟨⟨s.val - a, by omega⟩, Fin.ext (by show a + (s.val - a) = s.val; omega)⟩
    · rintro (h | ⟨k, rfl⟩)
      · omega
      · have := k.isLt; show a + k.val < a + b; omega
  rw [prefMax_eq_sup, prefMax_eq_sup, hsplit, Finset.sup_union, Finset.sup_image]
  rfl

/-! ## The pooled arrays and the result -/

/-- The maximum, from −∞, of `x[t, ·, f]`. -/
def rowMax (x : (⟨3, ![512, 512, 256]⟩ : Shape).Idx → EReal) (t : Fin 512) (f : Fin 256) : EReal :=
  (Finset.univ : Finset (Fin 512)).fold max ⊥ fun s => x (ix3 t s f)

/-- The maximum, from −∞, of `x[·, s, f]`. -/
def colMax (x : (⟨3, ![512, 512, 256]⟩ : Shape).Idx → EReal) (s : Fin 512) (f : Fin 256) : EReal :=
  (Finset.univ : Finset (Fin 512)).fold max ⊥ fun t => x (ix3 t s f)

/-- `rowMax` as an array of shape [512, 256]. -/
def rowMaxArr (x : (⟨3, ![512, 512, 256]⟩ : Shape).Idx → EReal) : (⟨2, ![512, 256]⟩ : Shape).Idx → EReal :=
  fun j => rowMax x (j 0) (j 1)

/-- `colMax` as an array of shape [512, 256]. -/
def colMaxArr (x : (⟨3, ![512, 512, 256]⟩ : Shape).Idx → EReal) : (⟨2, ![512, 256]⟩ : Shape).Idx → EReal :=
  fun j => colMax x (j 0) (j 1)

theorem rowMaxArr_ix2 (x : (⟨3, ![512, 512, 256]⟩ : Shape).Idx → EReal) (t : Fin 512) (f : Fin 256) :
    rowMaxArr x (ix2 t f) = rowMax x t f := rfl
theorem colMaxArr_ix2 (x : (⟨3, ![512, 512, 256]⟩ : Shape).Idx → EReal) (s : Fin 512) (f : Fin 256) :
    colMaxArr x (ix2 s f) = colMax x s f := rfl

/-- The left half of `W`, transposed: entry (f, g) is `W[g, f]`. -/
def leftT (W : (⟨2, ![256, 512]⟩ : Shape).Idx → EReal) : (⟨2, ![256, 256]⟩ : Shape).Idx → EReal :=
  fun j => W (ix2 (j 1) (⟨(j 0).val, by have := idx2_lt0 j; omega⟩ : Fin 512))

/-- The right half of `W`, transposed: entry (f, g) is `W[g, 256 + f]`. -/
def rightT (W : (⟨2, ![256, 512]⟩ : Shape).Idx → EReal) : (⟨2, ![256, 256]⟩ : Shape).Idx → EReal :=
  fun j => W (ix2 (j 1) (⟨256 + (j 0).val, by have := idx2_lt0 j; omega⟩ : Fin 512))

/-- Two projections added across, plus the bias: at (t, s, g),
    `(Σ_f sp[t, f] · u[f, g]) + (Σ_f tp[s, f] · v[f, g]) + b[g]`. -/
def combine (sp tp : (⟨2, ![512, 256]⟩ : Shape).Idx → EReal) (u v : (⟨2, ![256, 256]⟩ : Shape).Idx → EReal)
    (b : (⟨1, ![256]⟩ : Shape).Idx → EReal) : (⟨3, ![512, 512, 256]⟩ : Shape).Idx → EReal :=
  fun i => (∑ k : Fin 256, sp (ix2 (i 0) k) * u (ix2 k (i 2))) + (∑ k : Fin 256, tp (ix2 (i 1) k) * v (ix2 k (i 2)))
    + b (ix1 (i 2))

/-- The whole result as a function of the three argument arrays. -/
def out (x : (⟨3, ![512, 512, 256]⟩ : Shape).Idx → EReal) (W : (⟨2, ![256, 512]⟩ : Shape).Idx → EReal)
    (b : (⟨1, ![256]⟩ : Shape).Idx → EReal) : (⟨3, ![512, 512, 256]⟩ : Shape).Idx → EReal :=
  combine (rowMaxArr x) (colMaxArr x) (leftT W) (rightT W) b

end Cert.Pool

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.Pool0.lean ====
/-
  The first pass: the pooled array of row maxima.

  The pass walks the argument x of shape [512, 512, 256] in 4 × 8 blocks of shape [128, 64, 256]: point t stages rows
  128·(t/8) … 128·(t/8) + 127 and middle positions 64·(t%8) … 64·(t%8) + 63. The result block [128, 256] of row block
  t/8 stays in its buffer across the eight points of that row block. The first of them stores −∞ everywhere; every one
  replaces the running value at (p, q) by the larger of it and the maximum from −∞ of the staged block's column
  (p, ·, q). So after point t the buffer holds at (p, q) the maximum from −∞ of x[128·(t/8) + p, s, q] over
  s < 64·(t%8) + 64 — by induction on the point, a maximum over an initial stretch being the larger of the maximum over
  a shorter stretch and the maximum over the entries between. At the eighth point that is the maximum over all 512
  entries, and the block is written back to rows 128·(t/8) … of the pooled array. The four written blocks cover it.
-/
import proofs.«101535_j28578712388215_1_alg».proof.Proof.Gen.KernelIdeal.Frame
import proofs.«101535_j28578712388215_1_alg».proof.Proof.Spec
import proofs.«101535_j28578712388215_1_alg».proof.Proof.LibKeepdims
import Idealize.ShloMosaic.Lib.Pipeline.Value
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Tactic
open Idealize.ShloMosaic.Pipeline (Dat)

namespace Cert.KernelIdeal.Pool0

open Cert.KernelIdeal Cert.KernelIdeal.Gen

private theorem hz : (![0, 0] : Fin 2 → Nat) = fun _ => 0 := funext fun a => by fin_cases a <;> rfl
private theorem hz3 : (![0, 0, 0] : Fin 3 → Nat) = fun _ => 0 := funext fun a => by fin_cases a <;> rfl

section Pieces
variable {F : FTy → Type} [FloatOps F]

/-- At a point that does not start a row block the body leaves the update of the running block by the input block. -/
private theorem out_B (c : Dev nD) (i : grid0.Coords) (a2 : Memref sig .tc .vmem S128x64x256 .f32) (h2 : a2.IsWhole)
    (a3 : Memref sig .tc .vmem S128x256 .f32) (h3 : a3.IsWhole) (hc : ¬cond0_0 i)
    (x : Vec F S128x64x256 .f32) (xo : Vec F S128x256 .f32) :
    out0_B_1 c i a2 h2 a3 h3 hc x xo = k0_pay2 xo x := by
  unfold out0_B_1
  rw [View.read_writes_eq_canon _ _ _ (cover0_B_1 c i a2 h2 a3 h3 hc x xo)]
  unfold kernelRun0_B
  dsimp only
  sl_unfold_words
  rw [View.canon_unit_zero hz]
  simp only [View.readAt_eq_ld, h2.read_unread, h3.read_unread, View.ld_unit_zero (S := S128x256) hz,
    View.ld_unit_zero (S := S128x64x256) hz3]

/-- At a point that starts a row block the body first stores −∞ everywhere and then updates that by the input block. -/
private theorem out_A (c : Dev nD) (i : grid0.Coords) (a2 : Memref sig .tc .vmem S128x64x256 .f32) (h2 : a2.IsWhole)
    (a3 : Memref sig .tc .vmem S128x256 .f32) (h3 : a3.IsWhole) (hc : cond0_0 i)
    (x : Vec F S128x64x256 .f32) :
    out0_A_1 c i a2 h2 a3 h3 hc x = k0_pay2 k0_pay1 x := by
  unfold out0_A_1
  rw [View.read_writes_eq_canon _ _ _ (cover0_A_1 c i a2 h2 a3 h3 hc x)]
  unfold kernelRun0_A
  dsimp only
  sl_unfold_words
  rw [View.canon_cons_unit_zero (S := S128x256) hz, View.readCov_unit_zero (S := S128x256) _ hz]
  simp only [View.readAt_eq_ld, h2.read_unread, h3.read_unread, View.ld_unit_zero (S := S128x256) hz,
    View.ld_unit_zero (S := S128x64x256) hz3]

end Pieces

/-! ## The update at an index, over the extended reals -/

/-- The index the middle-axis maximum inserts coordinate s into, over (p, q), is (p, s, q). -/
private theorem lift_mid (h : S128x64x256.Reduces [1] S128x256) (p : Fin 128) (q : Fin 256) (s : Fin 64) :
    h.lift (ix2 p q) s = ix3 p s q :=
  funext fun a => Fin.ext (match a with | ⟨0, _⟩ => rfl | ⟨1, _⟩ => rfl | ⟨2, _⟩ => rfl)

/-- The update at (p, q): the larger of the running value and the maximum from −∞ of the block's column (p, ·, q). -/
private theorem pay2_apply (acc : Vec Ideal S128x256 .f32) (blk : Vec Ideal S128x64x256 .f32) (p : Fin 128) (q : Fin 256) :
    k0_pay2 (F := Ideal) acc blk (ix2 p q)
      = max (acc (ix2 p q) : EReal) ((Finset.univ : Finset (Fin 64)).fold max ⊥ fun s => (blk (ix3 p s q) : EReal)) := by
  unfold k0_pay2
  dsimp only
  rw [maximumf_apply, shapeCast_self]
  refine congrArg (max (acc (ix2 p q) : EReal)) ?_
  refine (Idealize.ShloMosaic.Ideal.multiReduction_maximumf_single blk _ reduces_S128x64x256_S128x256 _ _ (ix2 p q)).trans ?_
  show (Finset.univ : Finset (Fin 64)).fold max (Ideal.ofBits .f32 0xFF800000#32) (blk ∘ _) = _
  rw [Cert.LibKeepdims.ofBits_neg_inf]
  exact congrArg (fun g : Fin 64 → EReal => (Finset.univ : Finset (Fin 64)).fold max ⊥ g)
    (funext fun s => congrArg blk (lift_mid _ p q s))

/-- The reset block is −∞ everywhere. -/
private theorem pay1_apply (p : Fin 128) (q : Fin 256) : k0_pay1 (F := Ideal) (ix2 p q) = (⊥ : EReal) := by
  unfold k0_pay1
  rw [broadcast_apply]
  exact Cert.LibKeepdims.ofBits_neg_inf

/-! ## The input block at a point, read off the argument -/

variable (V : (c : Dev nD) → (b : Ref sig .tc) → Buf (Elt Ideal) ((c : Thread nD τ).loc b))

/-- The argument x, of shape [512, 512, 256]. -/
private abbrev xarr (c : Dev nD) : Vec Ideal S512x512x256 .f32 := V c main_arg0
/-- The block [128, 64, 256] of x staged at point t. -/
private abbrev xblk (c : Dev nD) (t : Fin cfg0.N) : Vec Ideal S128x64x256 .f32 := iblk0 V c 0 t
/-- The column of x over the middle axis at row r and lane q. -/
private abbrev xcol (c : Dev nD) (r : Fin 512) (q : Fin 256) : Fin 512 → EReal := fun s => xarr V c (ix3 r s q)

private theorem idx0_0 : ∀ t : Fin cfg0.N, win0_0.index t (0 : Fin 3) = t.val / 8 :=
  (by decide +kernel : ∀ t : Fin grid0.N, win0_0.index t (0 : Fin 3) = t.val / 8)
private theorem idx0_1 : ∀ t : Fin cfg0.N, win0_0.index t (1 : Fin 3) = t.val % 8 :=
  (by decide +kernel : ∀ t : Fin grid0.N, win0_0.index t (1 : Fin 3) = t.val % 8)
private theorem idx0_2 : ∀ t : Fin cfg0.N, win0_0.index t (2 : Fin 3) = 0 :=
  (by decide +kernel : ∀ t : Fin grid0.N, win0_0.index t (2 : Fin 3) = 0)

/-- Point t stages rows 128·(t/8) … and middle positions 64·(t%8) … of x. -/
private theorem xblk_apply (c : Dev nD) (t : Fin cfg0.N) (p : Fin 128) (s : Fin 64) (q : Fin 256)
    (r : Fin 512) (hr : r.val = 128 * (t.val / 8) + p.val) (hs : 64 * (t.val % 8) + s.val < 512) :
    xblk V c t (ix3 p s q) = xarr V c (ix3 r ⟨64 * (t.val % 8) + s.val, hs⟩ q) := by
  unfold xblk iblk0
  rw [View.read_apply]
  show V c main_arg0 _ = V c main_arg0 _
  congr 1
  funext a
  apply Fin.ext
  match a with
  | ⟨0, _⟩ => show win0_0.index t 0 * 128 + 1 * p.val = r.val; rw [idx0_0, hr]; omega
  | ⟨1, _⟩ => show win0_0.index t 1 * 64 + 1 * s.val = 64 * (t.val % 8) + s.val; rw [idx0_1]; omega
  | ⟨2, _⟩ => show win0_0.index t 2 * 256 + 1 * q.val = q.val; rw [idx0_2]; omega

/-- The maximum from −∞ of the staged block's column (p, ·, q) is that of the 64 entries of x's column from 64·(t%8). -/
private theorem fold_blk (c : Dev nD) (t : Fin cfg0.N) (p : Fin 128) (q : Fin 256) (r : Fin 512)
    (hr : r.val = 128 * (t.val / 8) + p.val) (hab : 64 * (t.val % 8) + 64 ≤ 512) :
    (Finset.univ : Finset (Fin 64)).fold max ⊥ (fun s => (xblk V c t (ix3 p s q) : EReal))
      = (Finset.univ : Finset (Fin 64)).fold max ⊥
          fun k => xcol V c r q ⟨64 * (t.val % 8) + k.val, by have := k.isLt; omega⟩ :=
  congrArg (fun g : Fin 64 → EReal => (Finset.univ : Finset (Fin 64)).fold max ⊥ g)
    (funext fun k => xblk_apply V c t p k q r hr _)

/-! ## The running maximum after each point -/

/-- One update: from the maximum of the first 64·(t%8) entries of the column to that of the first 64·(t%8) + 64. -/
private theorem step_apply (c : Dev nD) (t : Fin cfg0.N) (acc : Vec Ideal S128x256 .f32) (p : Fin 128) (q : Fin 256) (r : Fin 512)
    (hr : r.val = 128 * (t.val / 8) + p.val)
    (hacc : (acc (ix2 p q) : EReal) = Cert.Pool.prefMax (xcol V c r q) (64 * (t.val % 8))) :
    (k0_pay2 (F := Ideal) acc (xblk V c t) (ix2 p q) : EReal)
      = Cert.Pool.prefMax (xcol V c r q) (64 * (t.val % 8) + 64) := by
  have hab : 64 * (t.val % 8) + 64 ≤ 512 := by omega
  rw [pay2_apply, Cert.Pool.prefMax_add (xcol V c r q) (64 * (t.val % 8)) 64 hab]
  exact congrArg₂ max hacc (fold_blk V c t p q r hr hab)

/-- At a point that starts a row block. -/
private theorem outsAt_A_apply (c : Dev nD) (t : Fin cfg0.N) (h0 : t.val % 8 = 0) (p : Fin 128) (q : Fin 256) (r : Fin 512)
    (hr : r.val = 128 * (t.val / 8) + p.val) :
    ((outsAt0 V c t.val t.isLt : Vec Ideal S128x256 .f32) (ix2 p q) : EReal)
      = Cert.Pool.prefMax (xcol V c r q) (64 * (t.val % 8) + 64) := by
  rw [outsAt0_A V c t h0, out_A]
  exact step_apply V c t _ p q r hr (by rw [pay1_apply, h0]; exact (Cert.Pool.prefMax_zero _).symm)

/-- After point n the staging buffer holds, at (p, q), the maximum from −∞ of x[128·(n/8) + p, s, q] over
    s < 64·(n%8 + 1): by induction on the point. -/
private theorem outsAt_apply (c : Dev nD) : ∀ (n : ℕ) (hn : n < cfg0.N) (p : Fin 128) (q : Fin 256) (r : Fin 512),
    r.val = 128 * (n / 8) + p.val →
    ((outsAt0 V c n hn : Vec Ideal S128x256 .f32) (ix2 p q) : EReal)
      = Cert.Pool.prefMax (xcol V c r q) (64 * (n % 8) + 64)
  | 0, hn, p, q, r, hr => outsAt_A_apply V c ⟨0, hn⟩ rfl p q r hr
  | n + 1, hn, p, q, r, hr => by
    by_cases h0 : (n + 1) % 8 = 0
    · exact outsAt_A_apply V c ⟨n + 1, hn⟩ h0 p q r hr
    · rw [outsAt0_B V c ⟨n + 1, hn⟩ h0, out_B]
      exact step_apply V c ⟨n + 1, hn⟩ _ p q r hr
        ((outsAt_apply c n (Nat.lt_of_succ_lt hn) p q r (by omega)).trans
          (congrArg (Cert.Pool.prefMax (xcol V c r q)) (by show 64 * (n % 8) + 64 = 64 * ((n + 1) % 8); omega)))

/-! ## What is written back, and the whole array -/

private theorem idx1_0 : ∀ t : Fin cfg0.N, win0_1.index t (0 : Fin 2) = t.val / 8 :=
  (by decide +kernel : ∀ t : Fin grid0.N, win0_1.index t (0 : Fin 2) = t.val / 8)
private theorem idx1_1 : ∀ t : Fin cfg0.N, win0_1.index t (1 : Fin 2) = 0 :=
  (by decide +kernel : ∀ t : Fin grid0.N, win0_1.index t (1 : Fin 2) = 0)

/-- At the last point of a row block the staging buffer holds the whole maxima of its rows: all 512 entries. -/
private theorem last_apply (c : Dev nD) (t : Fin cfg0.N) (h7 : t.val % 8 = 7) (p : Fin 128) (q : Fin 256) (r : Fin 512)
    (hr : r.val = 128 * (t.val / 8) + p.val) :
    ((outsAt0 V c t.val t.isLt : Vec Ideal S128x256 .f32) (ix2 p q) : EReal)
      = Cert.Pool.rowMaxArr (xarr V c) (ix2 r q) := by
  rw [outsAt_apply V c t.val t.isLt p q r hr, h7, Cert.Pool.rowMaxArr_ix2]
  exact Cert.Pool.prefMax_all (xcol V c r q)

/-- Every write-back writes its block of the row maxima. -/
private theorem flushed_eq (c : Dev nD) (t : Fin cfg0.N) (hf : (cfg0.win 1).flush t = true) :
    (dat0 V c).flushed 1 t
      = ((cfg0.win 1).blk t).view.read (Elt Ideal) (Cert.Pool.rowMaxArr (V c main_arg0)) := by
  have h7 : t.val % 8 = 7 := (flush0_1 t).mp hf
  have hN : t.val < 32 := lt_of_lt_of_eq t.isLt (show cfg0.N = 32 from N_0)
  show (cfg0.win 1).cut (grid0.coords t) ((dat0 V c).after 1 t) = _
  rw [after0_1]
  funext y
  rw [View.read_apply]
  have hp : (y 0).val < 128 := (y 0).isLt
  have hq : (y 1).val < 256 := (y 1).isLt
  have e1 : (cfg0.win 1).xinj (grid0.coords t) y = ix2 (⟨(y 0).val, hp⟩ : Fin 128) (⟨(y 1).val, hq⟩ : Fin 256) :=
    funext fun a => Fin.ext (match a with | ⟨0, _⟩ => rfl | ⟨1, _⟩ => rfl)
  have e2 : ((cfg0.win 1).blk t).view.emb y
      = ix2 (⟨128 * (t.val / 8) + (y 0).val, by omega⟩ : Fin 512) (⟨(y 1).val, hq⟩ : Fin 256) :=
    funext fun a => Fin.ext (match a with
      | ⟨0, _⟩ => by
        show win0_1.index t 0 * 128 + 1 * (y 0).val = 128 * (t.val / 8) + (y 0).val
        rw [idx1_0]; omega
      | ⟨1, _⟩ => by
        show win0_1.index t 1 * 256 + 1 * (y 1).val = (y 1).val
        rw [idx1_1]; omega)
  show (outsAt0 V c t.val t.isLt : Vec Ideal S128x256 .f32) ((cfg0.win 1).xinj (grid0.coords t) y) = _
  rw [e1, e2]
  exact last_apply V c t h7 _ _ _ rfl

/-- Every index (r, q) of the pooled array lies in the block written back at the last point of r's row block. -/
private theorem cover (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0 : ℕ) < 512 := (i 0).isLt
  have h1 : (i 1 : ℕ) < 256 := (i 1).isLt
  have hN : cfg0.N = 32 := N_0
  obtain ⟨tf, htf⟩ : ∃ tf : Fin cfg0.N, tf.val = 8 * ((i 0 : ℕ) / 128) + 7 :=
    ⟨⟨8 * ((i 0 : ℕ) / 128) + 7, by rw [hN]; omega⟩, rfl⟩
  refine ⟨tf, (flush0_1 tf).mpr (by rw [htf]; omega), ?_⟩
  show i ∈ ((View.whole main_v4).slice (win0_1.rect tf)).set
  rw [View.set_slice_whole, Rect.mem_set_unit]
  intro a
  match a with
  | ⟨0, _⟩ =>
    show win0_1.index tf 0 * 128 ≤ (i 0 : ℕ) ∧ (i 0 : ℕ) < win0_1.index tf 0 * 128 + 128
    rw [idx1_0 tf, htf]; omega
  | ⟨1, _⟩ =>
    show win0_1.index tf 1 * 256 ≤ (i 1 : ℕ) ∧ (i 1 : ℕ) < win0_1.index tf 1 * 256 + 256
    rw [idx1_1 tf]; omega

/-- After the first pass the pooled array holds, at (t, f), the maximum from −∞ of x[t, ·, f]. -/
theorem arr_eq (c : Dev nD) :
    (dat0 (F := Ideal) V c).arrAt 1 cfg0.N = Cert.Pool.rowMaxArr (V c main_arg0) :=
  (dat0 V c).arrAt_eq_of_cover 1 _ (flushed_eq V c) (cover c)

end Cert.KernelIdeal.Pool0

end
-- ==== Proof.Pool1.lean ====
/-
  The second pooling pass: the maximum of x over its FIRST axis, taken block by block.

  The pass walks a grid of 4 × 8 points; point t works on output block t / 8 (rows 128·(t / 8) … of the pooled array
  [512, 256]) and on the t mod 8-th stretch of 64 rows of x along the first axis. At the first point of a run of eight
  the output block is reset to −∞; at every point it becomes the larger of what it held and the staged block's maximum
  over its first axis. So after point t the block holds at (p, q) the maximum from −∞ of x[r, 128·(t / 8) + p, q] over
  r < 64·(t mod 8 + 1) (`outsAt_eq`, by induction on the point: the maximum of the first a + b entries is the larger of
  the maximum of the first a and of the next b), which at the last point of the run is the maximum over the whole
  axis; that point writes the block back, and the eight-point runs' blocks tile the pooled array (`arr_eq`).
-/
import proofs.«101535_j28578712388215_1_alg».proof.Proof.Gen.KernelIdeal.Frame
import proofs.«101535_j28578712388215_1_alg».proof.Proof.Spec
import proofs.«101535_j28578712388215_1_alg».proof.Proof.LibKeepdims
import Idealize.ShloMosaic.Lib.Pipeline.Value
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Tactic
open Idealize.ShloMosaic.Pipeline (Dat)

namespace Cert.KernelIdeal.Pool1

open Cert.KernelIdeal Cert.KernelIdeal.Gen

variable (V : (c : Dev nD) → (b : Ref sig .tc) → Buf (Elt Ideal) ((c : Thread nD τ).loc b))

/-! ## What the body leaves in the output block, case by case -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- Away from the first point of a run the body leaves, in the output block holding `xo`, the larger of `xo` and the
    staged block's maximum over its first axis. -/
private theorem out_B {F : FTy → Type} [FloatOps F] (c : Dev nD) (i : grid1.Coords) (a2 : Memref sig .tc .vmem S64x128x256 .f32) (h2 : a2.IsWhole)
    (a3 : Memref sig .tc .vmem S128x256 .f32) (h3 : a3.IsWhole) (hc : ¬cond1_0 i)
    (x : Vec F S64x128x256 .f32) (xo : Vec F S128x256 .f32) :
    out1_B_1 c i a2 h2 a3 h3 hc x xo = k1_pay2 xo x := by
  unfold out1_B_1
  rw [View.read_writes_eq_canon _ _ _ (cover1_B_1 c i a2 h2 a3 h3 hc x xo)]
  unfold kernelRun1_B
  dsimp only
  sl_unfold_words
  rw [View.canon_unit_zero hz2]
  simp only [View.readAt_eq_ld, h2.read_unread, h3.read_unread, View.ld_unit_zero (S := S128x256) hz2,
    View.ld_unit_zero (S := S64x128x256) hz3]

/-- At the first point of a run the body first stores −∞ over the output block, reads it back, and leaves the larger of
    that and the staged block's maximum over its first axis. -/
private theorem out_A {F : FTy → Type} [FloatOps F] (c : Dev nD) (i : grid1.Coords) (a2 : Memref sig .tc .vmem S64x128x256 .f32) (h2 : a2.IsWhole)
    (a3 : Memref sig .tc .vmem S128x256 .f32) (h3 : a3.IsWhole) (hc : cond1_0 i)
    (x : Vec F S64x128x256 .f32) :
    out1_A_1 c i a2 h2 a3 h3 hc x = k1_pay2 k1_pay1 x := by
  unfold out1_A_1
  rw [View.read_writes_eq_canon _ _ _ (cover1_A_1 c i a2 h2 a3 h3 hc x)]
  unfold kernelRun1_A
  dsimp only
  sl_unfold_words
  rw [View.canon_cons_unit_zero (S := S128x256) hz2, View.readCov_unit_zero (S := S128x256) _ hz2]
  simp only [View.readAt_eq_ld, h2.read_unread, View.ld_unit_zero (S := S64x128x256) hz3]

/-! ## The update and the reset, at an index over the extended reals -/

/-- The index a reduction over the first axis inserts coordinate `r` into, over (p, q), is (r, p, q). -/
private theorem lift_first (h : S64x128x256.Reduces [0] S128x256) (p : Fin 128) (q : Fin 256) (r : Fin 64) :
    h.lift (ix2 p q) r = ix3 r p q :=
  funext fun a => Fin.ext (match a with | ⟨0, _⟩ => rfl | ⟨1, _⟩ => rfl | ⟨2, _⟩ => rfl)

/-- A float maximum of a block over its first axis from −∞, at (p, q), is the maximum from −∞ of the entries (·, p, q). -/
private theorem max_first (src : FVec Ideal S64x128x256 .f32) (h : S64x128x256.Reduces [0] S128x256)
    (hφ : FKind.Formats .f32) (hacc : (0xFF800000#32 : BitVec 32) = FKind.maximumf.neutral .f32 hφ) (p : Fin 128) (q : Fin 256) :
    multiReduction .maximumf [0] S128x256 src 0xFF800000#32 h hφ hacc (ix2 p q)
      = (Finset.univ : Finset (Fin 64)).fold max ⊥ (fun r => src (ix3 r p q)) := by
  refine (Ideal.multiReduction_maximumf_single src _ h hφ hacc (ix2 p q)).trans ?_
  show (Finset.univ : Finset (Fin 64)).fold max (Ideal.ofBits .f32 0xFF800000#32) (src ∘ h.lift (ix2 p q)) = _
  rw [Cert.LibKeepdims.ofBits_neg_inf]
  exact congrArg (fun g : Fin 64 → EReal => (Finset.univ : Finset (Fin 64)).fold max ⊥ g)
    (funext fun r => congrArg src (lift_first h p q r))

/-- The update at (p, q): the larger of the accumulator there and the block's maximum from −∞ over its first axis. -/
private theorem pay2_apply (acc : Vec Ideal S128x256 .f32) (blk : Vec Ideal S64x128x256 .f32) (p : Fin 128) (q : Fin 256) :
    k1_pay2 (F := Ideal) acc blk (ix2 p q)
      = max (acc (ix2 p q)) ((Finset.univ : Finset (Fin 64)).fold max ⊥ fun r => blk (ix3 r p q)) := by
  unfold k1_pay2
  dsimp only
  rw [maximumf_apply, shapeCast_self]
  exact congrArg (max (acc (ix2 p q))) (max_first blk _ _ _ p q)

/-- The reset block is −∞ everywhere. -/
private theorem pay1_apply (p : Fin 128) (q : Fin 256) : k1_pay1 (F := Ideal) (ix2 p q) = (⊥ : EReal) := by
  unfold k1_pay1
  rw [broadcast_apply]
  exact Cert.LibKeepdims.ofBits_neg_inf

/-! ## The staged block is a stretch of x -/

/-- The argument array x, of shape [512, 512, 256]. -/
private abbrev xarr (c : Dev nD) : Vec Ideal S512x512x256 .f32 := V c main_arg0
/-- The block of x staged at point `t`, of shape [64, 128, 256]. -/
private abbrev xblk (c : Dev nD) (t : Fin cfg1.N) : Vec Ideal S64x128x256 .f32 := iblk1 V c 0 t

/-- The block staged at point `t` holds at (r, p, q) the entry of x at (64·(t mod 8) + r, 128·(t / 8) + p, q). -/
private theorem xblk_apply (c : Dev nD) (t : Fin cfg1.N) (r : Fin 64) (p : Fin 128) (q : Fin 256) :
    xblk V c t (ix3 r p q)
      = xarr V c (ix3 (⟨64 * (t.val % 8) + r.val, by have := r.isLt; omega⟩ : Fin 512)
          (⟨128 * (t.val / 8) + p.val, by
            have hN : t.val < 32 := lt_of_lt_of_eq t.isLt (show cfg1.N = 32 from N_1)
            have := p.isLt; omega⟩ : Fin 512) q) := by
  have hN : t.val < 32 := lt_of_lt_of_eq t.isLt (show cfg1.N = 32 from N_1)
  have hi0 : win1_0.index t (0 : Fin 3) = t.val % 8 :=
    (by decide +kernel : ∀ t : Fin grid1.N, win1_0.index t (0 : Fin 3) = t.val % 8) t
  have hi1 : win1_0.index t (1 : Fin 3) = t.val / 8 :=
    (by decide +kernel : ∀ t : Fin grid1.N, win1_0.index t (1 : Fin 3) = t.val / 8) t
  have hi2 : win1_0.index t (2 : Fin 3) = 0 :=
    (by decide +kernel : ∀ t : Fin grid1.N, win1_0.index t (2 : Fin 3) = 0) t
  show ((cfg1.win 0).blk t).view.read (Elt Ideal) (V c (Pipeline.arrRef spec1 0)) (ix3 r p q) = _
  rw [View.read_apply]
  show V c main_arg0 _ = V c main_arg0 _
  congr 1
  funext a
  apply Fin.ext
  match a with
  | ⟨0, _⟩ => show win1_0.index t 0 * 64 + 1 * r.val = 64 * (t.val % 8) + r.val; rw [hi0]; omega
  | ⟨1, _⟩ => show win1_0.index t 1 * 128 + 1 * p.val = 128 * (t.val / 8) + p.val; rw [hi1]; omega
  | ⟨2, _⟩ => show win1_0.index t 2 * 256 + 1 * q.val = q.val; rw [hi2]; omega

/-! ## The running maximum, point by point -/

open Cert.Pool (prefMax prefMax_zero prefMax_add prefMax_all)

/-- One point's update of a running maximum: if the accumulator at (p, q) is the maximum from −∞ of x[·, s, q] over the
    rows below 64·(t mod 8), where s = 128·(t / 8) + p, then the larger of it and the maximum of the block staged at
    `t` over its first axis is the maximum over the rows below 64·(t mod 8 + 1): the block's rows are the next 64. -/
private theorem step (c : Dev nD) (t : Fin cfg1.N) (p : Fin 128) (q : Fin 256) (s : Fin 512)
    (hs : s.val = 128 * (t.val / 8) + p.val) (acc : EReal)
    (hacc : acc = prefMax (fun r : Fin 512 => xarr V c (ix3 r s q)) (64 * (t.val % 8))) :
    max acc ((Finset.univ : Finset (Fin 64)).fold max ⊥ fun r => xblk V c t (ix3 r p q))
      = prefMax (fun r : Fin 512 => xarr V c (ix3 r s q)) (64 * (t.val % 8 + 1)) := by
  subst hacc
  have hN : t.val < 32 := lt_of_lt_of_eq t.isLt (show cfg1.N = 32 from N_1)
  have hp : p.val < 128 := p.isLt
  have hb : 128 * (t.val / 8) + p.val < 512 := by clear hs; omega
  obtain rfl : s = (⟨128 * (t.val / 8) + p.val, hb⟩ : Fin 512) := Fin.ext hs
  rw [show 64 * (t.val % 8 + 1) = 64 * (t.val % 8) + 64 from by omega,
    prefMax_add _ (64 * (t.val % 8)) 64 (by omega)]
  refine congrArg (max _) ?_
  exact congrArg (fun g : Fin 64 → EReal => (Finset.univ : Finset (Fin 64)).fold max ⊥ g)
    (funext fun r => xblk_apply V c t r p q)

/-- THE RUNNING MAXIMUM. After point `n` the output block holds at (p, q) the maximum from −∞ of x[·, s, q], where
    s = 128·(n / 8) + p, over the rows below 64·(n mod 8 + 1) — by induction on the point. -/
private theorem outsAt_eq (c : Dev nD) (n : ℕ) : ∀ (hn : n < cfg1.N) (p : Fin 128) (q : Fin 256) (s : Fin 512),
    s.val = 128 * (n / 8) + p.val →
    outsAt1 V c n hn (ix2 p q) = prefMax (fun r : Fin 512 => xarr V c (ix3 r s q)) (64 * (n % 8 + 1)) := by
  induction n with
  | zero =>
    intro hn p q s hs
    rw [outsAt1_A V c ⟨0, hn⟩ rfl]
    refine (congrFun (out_A c (grid1.coords ⟨0, hn⟩) (ms1_0 ⟨0, hn⟩) (hs1_0 ⟨0, hn⟩) (ms1_1 ⟨0, hn⟩) (hs1_1 ⟨0, hn⟩)
      ((hcond1_0 ⟨0, hn⟩).mpr rfl) (xblk V c ⟨0, hn⟩)) (ix2 p q)).trans ?_
    refine (pay2_apply (k1_pay1 (F := Ideal)) (xblk V c ⟨0, hn⟩) p q).trans ?_
    exact step V c ⟨0, hn⟩ p q s hs _ (by rw [pay1_apply]; exact (prefMax_zero _).symm)
  | succ m ih =>
    intro hn p q s hs
    have hN : m + 1 < 32 := lt_of_lt_of_eq hn (show cfg1.N = 32 from N_1)
    by_cases h0 : (m + 1) % 8 = 0
    · rw [outsAt1_A V c ⟨m + 1, hn⟩ h0]
      refine (congrFun (out_A c (grid1.coords ⟨m + 1, hn⟩) (ms1_0 ⟨m + 1, hn⟩) (hs1_0 ⟨m + 1, hn⟩) (ms1_1 ⟨m + 1, hn⟩)
        (hs1_1 ⟨m + 1, hn⟩) ((hcond1_0 ⟨m + 1, hn⟩).mpr h0) (xblk V c ⟨m + 1, hn⟩)) (ix2 p q)).trans ?_
      refine (pay2_apply (k1_pay1 (F := Ideal)) (xblk V c ⟨m + 1, hn⟩) p q).trans ?_
      refine step V c ⟨m + 1, hn⟩ p q s hs _ ?_
      rw [pay1_apply]
      show (⊥ : EReal) = prefMax _ (64 * ((m + 1) % 8))
      rw [h0, Nat.mul_zero, prefMax_zero]
    · rw [outsAt1_B V c ⟨m + 1, hn⟩ h0]
      refine (congrFun (out_B c (grid1.coords ⟨m + 1, hn⟩) (ms1_0 ⟨m + 1, hn⟩) (hs1_0 ⟨m + 1, hn⟩) (ms1_1 ⟨m + 1, hn⟩)
        (hs1_1 ⟨m + 1, hn⟩) (fun h => h0 ((hcond1_0 ⟨m + 1, hn⟩).mp h)) (xblk V c ⟨m + 1, hn⟩)
        (outsAt1 V c m (Nat.lt_of_succ_lt hn))) (ix2 p q)).trans ?_
      refine (pay2_apply (outsAt1 V c m (Nat.lt_of_succ_lt hn)) (xblk V c ⟨m + 1, hn⟩) p q).trans ?_
      refine step V c ⟨m + 1, hn⟩ p q s hs _ ?_
      refine (ih (Nat.lt_of_succ_lt hn) p q s (by omega)).trans ?_
      exact congrArg (prefMax _) (show 64 * (m % 8 + 1) = 64 * ((m + 1) % 8) from by omega)

/-! ## The pooled array -/

/-- What a point that writes its block back writes is its block of the pooled array: there the run over the first axis
    is complete, and the block's entry (p, q) lies in the array at (128·(t / 8) + p, q). -/
private theorem flushed_eq (c : Dev nD) (t : Fin cfg1.N) (hf : (cfg1.win 1).flush t = true) :
    (dat1 V c).flushed 1 t
      = ((cfg1.win 1).blk t).view.read (Elt Ideal) (Cert.Pool.colMaxArr (V c main_arg0)) := by
  have hN : t.val < 32 := lt_of_lt_of_eq t.isLt (show cfg1.N = 32 from N_1)
  have h7 : t.val % 8 = 7 := (flush1_1 t).mp hf
  have hj0 : win1_1.index t (0 : Fin 2) = t.val / 8 :=
    (by decide +kernel : ∀ t : Fin grid1.N, win1_1.index t (0 : Fin 2) = t.val / 8) t
  have hj1 : win1_1.index t (1 : Fin 2) = 0 :=
    (by decide +kernel : ∀ t : Fin grid1.N, win1_1.index t (1 : Fin 2) = 0) t
  show (cfg1.win 1).cut (grid1.coords t) ((dat1 V c).after 1 t) = _
  rw [after1_1]
  funext y
  obtain ⟨p, q, rfl⟩ : ∃ (p : Fin 128) (q : Fin 256), y = ix2 p q := ⟨y 0, y 1, eq_ix2 y⟩
  have hp : p.val < 128 := p.isLt
  have hb : 128 * (t.val / 8) + p.val < 512 := by omega
  rw [View.read_apply]
  show outsAt1 V c t.val t.isLt (ix2 p q) = _
  rw [outsAt_eq V c t.val t.isLt p q ⟨128 * (t.val / 8) + p.val, hb⟩ rfl,
    show 64 * (t.val % 8 + 1) = 512 from by omega, prefMax_all]
  show _ = Cert.Pool.colMaxArr (V c main_arg0) (((cfg1.win 1).blk t).view.emb (ix2 p q))
  have he : ((cfg1.win 1).blk t).view.emb (ix2 p q)
      = (ix2 (⟨128 * (t.val / 8) + p.val, hb⟩ : Fin 512) q : S512x256.Idx) := by
    funext a
    apply Fin.ext
    match a with
    | ⟨0, _⟩ => show win1_1.index t 0 * 128 + 1 * p.val = 128 * (t.val / 8) + p.val; rw [hj0]; omega
    | ⟨1, _⟩ => show win1_1.index t 1 * 256 + 1 * q.val = q.val; rw [hj1]; omega
  rw [he, Cert.Pool.colMaxArr_ix2]
  rfl

/-- After the second pass the pooled array holds, at (s, f), the maximum from −∞ of x[·, s, f]. -/
theorem arr_eq (c : Dev nD) :
    (dat1 (F := Ideal) V c).arrAt 1 cfg1.N = Cert.Pool.colMaxArr (V c main_arg0) :=
  (dat1 V c).arrAt_eq_of_cover 1 (Cert.Pool.colMaxArr (V c main_arg0)) (flushed_eq V c) fun i => by
    have h0 : (i 0 : ℕ) < 512 := (i 0).isLt
    have h1 : (i 1 : ℕ) < 256 := (i 1).isLt
    have hN : cfg1.N = 32 := N_1
    obtain ⟨t, ht⟩ : ∃ t : Fin cfg1.N, t.val = 8 * ((i 0 : ℕ) / 128) + 7 :=
      ⟨⟨8 * ((i 0 : ℕ) / 128) + 7, by rw [hN]; omega⟩, rfl⟩
    have hj0 : win1_1.index t (0 : Fin 2) = t.val / 8 :=
      (by decide +kernel : ∀ t : Fin grid1.N, win1_1.index t (0 : Fin 2) = t.val / 8) t
    have hj1 : win1_1.index t (1 : Fin 2) = 0 :=
      (by decide +kernel : ∀ t : Fin grid1.N, win1_1.index t (1 : Fin 2) = 0) t
    have hx0 : win1_1.xsize (grid1.coords t) (0 : Fin 2) = 128 :=
      (by decide +kernel : ∀ t : Fin grid1.N, win1_1.xsize (grid1.coords t) (0 : Fin 2) = 128) t
    have hx1 : win1_1.xsize (grid1.coords t) (1 : Fin 2) = 256 :=
      (by decide +kernel : ∀ t : Fin grid1.N, win1_1.xsize (grid1.coords t) (1 : Fin 2) = 256) t
    refine ⟨t, (flush1_1 t).mpr (by omega), ?_⟩
    show i ∈ ((View.whole main_v5).slice (win1_1.rect t)).set
    rw [View.set_slice_whole, Rect.mem_set_unit]
    intro a
    match a with
    | ⟨0, _⟩ =>
      show win1_1.index t 0 * win1_1.size 0 ≤ (i 0 : ℕ)
        ∧ (i 0 : ℕ) < win1_1.index t 0 * win1_1.size 0 + win1_1.xsize (grid1.coords t) 0
      rw [hj0, hx0, show win1_1.size 0 = 128 from rfl]
      omega
    | ⟨1, _⟩ =>
      show win1_1.index t 1 * win1_1.size 1 ≤ (i 1 : ℕ)
        ∧ (i 1 : ℕ) < win1_1.index t 1 * win1_1.size 1 + win1_1.xsize (grid1.coords t) 1
      rw [hj1, hx1, show win1_1.size 1 = 256 from rfl]
      omega

end Cert.KernelIdeal.Pool1

end
-- ==== Proof.Final.lean ====
import proofs.«101535_j28578712388215_1_alg».proof.Proof.Gen.KernelIdeal.Frame
import proofs.«101535_j28578712388215_1_alg».proof.Proof.Spec
import proofs.«101535_j28578712388215_1_alg».proof.Proof.LibKeepdims
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (V : (c : Dev nD) → (b : Ref sig .tc) → Buf (Elt Ideal) ((c : Thread nD τ).loc b))

/-! ## A product of a block of rows with a square matrix, read at an entry

The contraction runs over the rows' last axis and the matrix's first: entry (p, g) of the product into a zero
accumulator is the sum over k of row p at k times the matrix at (k, g). -/

private theorem lhsRow_0 (i : S64x256.Idx) (q : dot_S64x256_S256x256_S64x256_1_0_0_1_n_n.contr.Idx) :
    (dot_S64x256_S256x256_S64x256_1_0_0_1_n_n.lhsIdx i q 0).val = (i 0).val := by
  unfold DotDims.lhsIdx
  rw [dif_neg (show ¬(0 : Fin S64x256.rank) ∈ dot_S64x256_S256x256_S64x256_1_0_0_1_n_n.lhsBatch by decide), dif_pos (show (0 : Fin S64x256.rank) ∈ dot_S64x256_S256x256_S64x256_1_0_0_1_n_n.lhsNonContracting by decide)]
  rfl
private theorem lhsRow_1 (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q
private theorem rhsRow_0 (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q
private theorem rhsRow_1 (i : S64x256.Idx) (q : dot_S64x256_S256x256_S64x256_1_0_0_1_n_n.contr.Idx) :
    (dot_S64x256_S256x256_S64x256_1_0_0_1_n_n.rhsIdx i q 1).val = (i 1).val := by
  unfold DotDims.rhsIdx
  rw [dif_neg (show ¬(1 : Fin S256x256.rank) ∈ dot_S64x256_S256x256_S64x256_1_0_0_1_n_n.rhsBatch by decide), dif_pos (show (1 : Fin S256x256.rank) ∈ dot_S64x256_S256x256_S64x256_1_0_0_1_n_n.rhsNonContracting by decide)]
  rfl

/-- Entry (p, g) of a [64, 256] block times a [256, 256] matrix, into zero. -/
private theorem matmul_row {φ₁ φ₂ : FTy} (a : FVec Ideal S64x256 φ₁) (b : FVec Ideal S256x256 φ₂) (p : Fin 64) (g : Fin 256) :
    matmul dot_S64x256_S256x256_S64x256_1_0_0_1_n_n none a b (constant (F := Ideal) S64x256 .f32 0x00000000#32) (ix2 p g)
      = ∑ k : Fin 256, a (ix2 p k) * b (ix2 k g) := by
  simp only [matmul]
  rw [Ideal.matmul_constant_zero_apply, ← Equiv.sum_comp (ValueIdx.contrEquiv1 dot_S64x256_S256x256_S64x256_1_0_0_1_n_n 256 rfl rfl).symm]
  refine Finset.sum_congr rfl fun k _ => ?_
  have hk := ValueIdx.contrEquiv1_symm_val dot_S64x256_S256x256_S64x256_1_0_0_1_n_n 256 rfl rfl k
  have el : dot_S64x256_S256x256_S64x256_1_0_0_1_n_n.lhsIdx (ix2 p g) ((ValueIdx.contrEquiv1 dot_S64x256_S256x256_S64x256_1_0_0_1_n_n 256 rfl rfl).symm k) = ix2 p k := funext fun a => Fin.ext (by
    match a with
    | ⟨0, _⟩ => exact lhsRow_0 _ _
    | ⟨1, _⟩ => exact (lhsRow_1 _ _).trans hk)
  have er : dot_S64x256_S256x256_S64x256_1_0_0_1_n_n.rhsIdx (ix2 p g) ((ValueIdx.contrEquiv1 dot_S64x256_S256x256_S64x256_1_0_0_1_n_n 256 rfl rfl).symm k) = ix2 k g := funext fun a => Fin.ext (by
    match a with
    | ⟨0, _⟩ => exact (rhsRow_0 _ _).trans hk
    | ⟨1, _⟩ => exact rhsRow_1 _ _)
  rw [el, er]

private theorem lhsCol_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
private theorem lhsCol_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
private theorem rhsCol_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
private theorem rhsCol_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- Entry (s, g) of a [128, 256] block times a [256, 256] matrix, into zero. -/
private theorem matmul_col {φ₁ φ₂ : FTy} (a : FVec Ideal S128x256 φ₁) (b : FVec Ideal S256x256 φ₂) (s : Fin 128) (g : Fin 256) :
    matmul dot_S128x256_S256x256_S128x256_1_0_0_1_n_n none a b (constant (F := Ideal) S128x256 .f32 0x00000000#32) (ix2 s g)
      = ∑ k : Fin 256, a (ix2 s k) * b (ix2 k g) := by
  simp only [matmul]
  rw [Ideal.matmul_constant_zero_apply, ← Equiv.sum_comp (ValueIdx.contrEquiv1 dot_S128x256_S256x256_S128x256_1_0_0_1_n_n 256 rfl rfl).symm]
  refine Finset.sum_congr rfl fun k _ => ?_
  have hk := ValueIdx.contrEquiv1_symm_val dot_S128x256_S256x256_S128x256_1_0_0_1_n_n 256 rfl rfl k
  have el : dot_S128x256_S256x256_S128x256_1_0_0_1_n_n.lhsIdx (ix2 s g) ((ValueIdx.contrEquiv1 dot_S128x256_S256x256_S128x256_1_0_0_1_n_n 256 rfl rfl).symm k) = ix2 s k := funext fun a => Fin.ext (by
    match a with
    | ⟨0, _⟩ => exact lhsCol_0 _ _
    | ⟨1, _⟩ => exact (lhsCol_1 _ _).trans hk)
  have er : dot_S128x256_S256x256_S128x256_1_0_0_1_n_n.rhsIdx (ix2 s g) ((ValueIdx.contrEquiv1 dot_S128x256_S256x256_S128x256_1_0_0_1_n_n 256 rfl rfl).symm k) = ix2 k g := funext fun a => Fin.ext (by
    match a with
    | ⟨0, _⟩ => exact (rhsCol_0 _ _).trans hk
    | ⟨1, _⟩ => exact rhsCol_1 _ _)
  rw [el, er]

/-! ## The unit axes: a matrix given a unit axis and repeated along it

A [64, 256] matrix viewed as [64, 1, 256] and repeated along the middle axis reads, at (p, s, g), the matrix at
(p, g); a [128, 256] matrix viewed as [1, 128, 256] and repeated along the first axis reads the matrix at (s, g); a
vector [256] viewed as [1, 1, 256] and repeated along both reads the vector at g. -/

section Layout
variable {α : Type}

private theorem bcast_mid (v : S64x1x256.Idx → α) (h : S64x1x256.Broadcasts S64x128x256) (p : Fin 64) (s : Fin 128) (g : Fin 256) :
    broadcastTo S64x128x256 v h (ix3 p s g) = v (ix3 p (0 : Fin 1) g) := by
  refine broadcastTo_apply v h (ix3 p s g) (ix3 p (0 : Fin 1) g) fun ax => ?_
  match ax with
  | ⟨0, _⟩ => show p.val = if (64 : Nat) = 1 then 0 else p.val; rw [if_neg (by decide)]
  | ⟨1, _⟩ => show 0 = if (1 : Nat) = 1 then 0 else s.val; rw [if_pos rfl]
  | ⟨2, _⟩ => show g.val = if (256 : Nat) = 1 then 0 else g.val; rw [if_neg (by decide)]

private theorem bcast_front (v : S1x128x256.Idx → α) (h : S1x128x256.Broadcasts S64x128x256) (p : Fin 64) (s : Fin 128) (g : Fin 256) :
    broadcastTo S64x128x256 v h (ix3 p s g) = v (ix3 (0 : Fin 1) s g) := by
  refine broadcastTo_apply v h (ix3 p s g) (ix3 (0 : Fin 1) s g) fun ax => ?_
  match ax with
  | ⟨0, _⟩ => show 0 = if (1 : Nat) = 1 then 0 else p.val; rw [if_pos rfl]
  | ⟨1, _⟩ => show s.val = if (128 : Nat) = 1 then 0 else s.val; rw [if_neg (by decide)]
  | ⟨2, _⟩ => show g.val = if (256 : Nat) = 1 then 0 else g.val; rw [if_neg (by decide)]

private theorem bcast_both (v : S1x1x256.Idx → α) (h : S1x1x256.Broadcasts S64x128x256) (p : Fin 64) (s : Fin 128) (g : Fin 256) :
    broadcastTo S64x128x256 v h (ix3 p s g) = v (ix3 (0 : Fin 1) (0 : Fin 1) g) := by
  refine broadcastTo_apply v h (ix3 p s g) (ix3 (0 : Fin 1) (0 : Fin 1) g) fun ax => ?_
  match ax with
  | ⟨0, _⟩ => show 0 = if (1 : Nat) = 1 then 0 else p.val; rw [if_pos rfl]
  | ⟨1, _⟩ => show 0 = if (1 : Nat) = 1 then 0 else s.val; rw [if_pos rfl]
  | ⟨2, _⟩ => show g.val = if (256 : Nat) = 1 then 0 else g.val; rw [if_neg (by decide)]

private theorem cast_mid (v : S64x256.Idx → α) (h : S64x256.ShapeCasts S64x1x256) (p : Fin 64) (g : Fin 256) :
    shapeCast S64x1x256 v h (ix3 p (0 : Fin 1) g) = v (ix2 p g) :=
  shapeCast_apply v h _ _ (by
    rw [Shape.rowMajor_val_three, Shape.rowMajor_val_two]
    show p.val * 256 + g.val = (p.val * 1 + 0) * 256 + g.val
    omega)

private theorem cast_front (v : S128x256.Idx → α) (h : S128x256.ShapeCasts S1x128x256) (s : Fin 128) (g : Fin 256) :
    shapeCast S1x128x256 v h (ix3 (0 : Fin 1) s g) = v (ix2 s g) :=
  shapeCast_apply v h _ _ (by
    rw [Shape.rowMajor_val_three, Shape.rowMajor_val_two]
    show s.val * 256 + g.val = (0 * 128 + s.val) * 256 + g.val
    omega)

end Layout

/-! ## What the pass stores, at an entry -/

/-- At (p, s, g) of its block the pass stores row p of its first block times the first matrix, plus row s of its
    second block times the second matrix, plus the bias at g. -/
private theorem pay_apply (v0 : Vec Ideal S64x256 .f32) (v3 : Vec Ideal S256x256 .f32) (v7 : Vec Ideal S128x256 .f32)
    (v10 : Vec Ideal S256x256 .f32) (v19 : Vec Ideal S256 .f32) (p : Fin 64) (s : Fin 128) (g : Fin 256) :
    k2_pay1 (F := Ideal) v0 v3 v7 v10 v19 (ix3 p s g)
      = (∑ k : Fin 256, v0 (ix2 p k) * v3 (ix2 k g)) + (∑ k : Fin 256, v7 (ix2 s k) * v10 (ix2 k g)) + v19 (ix1 g) := by
  unfold k2_pay1
  rw [addf_apply, addf_apply, bcast_mid, bcast_front, bcast_both, cast_mid, cast_front, Cert.LibKeepdims.cast_vec_11n,
    matmul_row, matmul_col]
  simp only [shapeCast_self, truncf_apply]

/-! ## The blocks the pass finds at a point, as rows of their arrays

Point t of the 8 × 4 grid has coordinates (t / 4, t % 4). Its block of the first pooled array is the rows
64 (t / 4) … 64 (t / 4) + 63, its block of the second the rows 128 (t % 4) … 128 (t % 4) + 127; the two matrices and
the bias are whole; its block of the result is the rows 64 (t / 4) … of the first axis and 128 (t % 4) … of the second. -/

private theorem pt_lt (t : Fin cfg2.N) : t.val < 32 := lt_of_lt_of_eq t.isLt (show cfg2.N = 32 from N_2)

/-- The block index of every window at every point (decided over the 32 points). -/
private theorem idx_facts : ∀ t : Fin cfg2.N,
    win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 3) = t.val / 4 ∧ win2_5.index t (1 : Fin 3) = t.val % 4 ∧ win2_5.index t (2 : Fin 3) = 0 :=
  (by decide +kernel : ∀ t : Fin grid2.N, _)

private theorem blk0_apply (c : Dev nD) (t : Fin cfg2.N) (p : Fin 64) (k : Fin 256) :
    (iblk2 V c 0 t : Vec Ideal S64x256 .f32) (ix2 p k)
      = (V c main_v4 : S512x256.Idx → Elt Ideal .f32) (ix2 (⟨64 * (t.val / 4) + p.val, by have := pt_lt t; omega⟩ : Fin 512) k) := by
  obtain ⟨e0, e1, -⟩ := idx_facts t
  unfold iblk2
  rw [View.read_apply]
  show V c main_v4 _ = V c main_v4 _
  congr 1
  funext a
  apply Fin.ext
  match a with
  | ⟨0, _⟩ => show win2_0.index t (0 : Fin 2) * 64 + 1 * p.val = 64 * (t.val / 4) + p.val; rw [e0]; omega
  | ⟨1, _⟩ => show win2_0.index t (1 : Fin 2) * 256 + 1 * k.val = k.val; rw [e1]; omega

private theorem blk1_apply (c : Dev nD) (t : Fin cfg2.N) (s : Fin 128) (k : Fin 256) :
    (iblk2 V c 1 t : Vec Ideal S128x256 .f32) (ix2 s k)
      = (V c main_v5 : S512x256.Idx → Elt Ideal .f32) (ix2 (⟨128 * (t.val % 4) + s.val, by omega⟩ : Fin 512) k) := by
  obtain ⟨-, -, e0, e1, -⟩ := idx_facts t
  unfold iblk2
  rw [View.read_apply]
  show V c main_v5 _ = V c main_v5 _
  congr 1
  funext a
  apply Fin.ext
  match a with
  | ⟨0, _⟩ => show win2_1.index t (0 : Fin 2) * 128 + 1 * s.val = 128 * (t.val % 4) + s.val; rw [e0]; omega
  | ⟨1, _⟩ => show win2_1.index t (1 : Fin 2) * 256 + 1 * k.val = k.val; rw [e1]; omega

private theorem blk2_apply (c : Dev nD) (t : Fin cfg2.N) (k g : Fin 256) :
    (iblk2 V c 2 t : Vec Ideal S256x256 .f32) (ix2 k g) = (V c main_v2 : S256x256.Idx → Elt Ideal .f32) (ix2 k g) := by
  obtain ⟨-, -, -, -, e0, e1, -⟩ := idx_facts t
  unfold iblk2
  rw [View.read_apply]
  show V c main_v2 _ = V c main_v2 _
  congr 1
  funext a
  apply Fin.ext
  match a with
  | ⟨0, _⟩ => show win2_2.index t (0 : Fin 2) * 256 + 1 * k.val = k.val; rw [e0]; omega
  | ⟨1, _⟩ => show win2_2.index t (1 : Fin 2) * 256 + 1 * g.val = g.val; rw [e1]; omega

private theorem blk3_apply (c : Dev nD) (t : Fin cfg2.N) (k g : Fin 256) :
    (iblk2 V c 3 t : Vec Ideal S256x256 .f32) (ix2 k g) = (V c main_v3 : S256x256.Idx → Elt Ideal .f32) (ix2 k g) := by
  obtain ⟨-, -, -, -, -, -, e0, e1, -⟩ := idx_facts t
  unfold iblk2
  rw [View.read_apply]
  show V c main_v3 _ = V c main_v3 _
  congr 1
  funext a
  apply Fin.ext
  match a with
  | ⟨0, _⟩ => show win2_3.index t (0 : Fin 2) * 256 + 1 * k.val = k.val; rw [e0]; omega
  | ⟨1, _⟩ => show win2_3.index t (1 : Fin 2) * 256 + 1 * g.val = g.val; rw [e1]; omega

private theorem blk4_apply (c : Dev nD) (t : Fin cfg2.N) (g : Fin 256) :
    (iblk2 V c 4 t : Vec Ideal S256 .f32) (ix1 g) = (V c main_arg2 : S256.Idx → Elt Ideal .f32) (ix1 g) := by
  obtain ⟨-, -, -, -, -, -, -, -, e0, -⟩ := idx_facts t
  unfold iblk2
  rw [View.read_apply]
  show V c main_arg2 _ = V c main_arg2 _
  congr 1
  funext a
  apply Fin.ext
  match a with
  | ⟨0, _⟩ => show win2_4.index t (0 : Fin 1) * 256 + 1 * g.val = g.val; rw [e0]; omega

/-- Entry (p, s, g) of the result's block at point t is entry (64 (t / 4) + p, 128 (t % 4) + s, g) of the result. -/
private theorem emb5_apply (t : Fin cfg2.N) (p : Fin 64) (s : Fin 128) (g : Fin 256) :
    (((cfg2.win 5).blk t).view.emb (ix3 p s g) : S512x512x256.Idx)
      = ix3 (⟨64 * (t.val / 4) + p.val, by have := pt_lt t; omega⟩ : Fin 512) (⟨128 * (t.val % 4) + s.val, by omega⟩ : Fin 512) g := by
  obtain ⟨-, -, -, -, -, -, -, -, -, e0, e1, e2⟩ := idx_facts t
  funext a
  apply Fin.ext
  match a with
  | ⟨0, _⟩ => show win2_5.index t (0 : Fin 3) * 64 + 1 * p.val = 64 * (t.val / 4) + p.val; rw [e0]; omega
  | ⟨1, _⟩ => show win2_5.index t (1 : Fin 3) * 128 + 1 * s.val = 128 * (t.val % 4) + s.val; rw [e1]; omega
  | ⟨2, _⟩ => show win2_5.index t (2 : Fin 3) * 256 + 1 * g.val = g.val; rw [e2]; omega

/-! ## What a point writes back, and the whole result -/

private theorem hz3 : (![0, 0, 0] : Fin 3 → Nat) = fun _ => 0 := funext fun a => by fin_cases a <;> rfl
private theorem hz2 : (![0, 0] : Fin 2 → Nat) = fun _ => 0 := funext fun a => by fin_cases a <;> rfl
private theorem hz1 : (![0] : Fin 1 → Nat) = fun _ => 0 := funext fun a => by fin_cases a <;> rfl

/-- The two projections added across plus the bias, at an index written by coordinates. -/
private theorem combine_ix3 (sp tp : (⟨2, ![512, 256]⟩ : Shape).Idx → EReal) (u v : (⟨2, ![256, 256]⟩ : Shape).Idx → EReal)
    (b : (⟨1, ![256]⟩ : Shape).Idx → EReal) (x y : Fin 512) (g : Fin 256) :
    Cert.Pool.combine sp tp u v b (ix3 x y g)
      = (∑ k : Fin 256, sp (ix2 x k) * u (ix2 k g)) + (∑ k : Fin 256, tp (ix2 y k) * v (ix2 k g)) + b (ix1 g) := rfl

/-- Point t writes back its block of the two projections added across plus the bias. -/
private theorem flushed_eq (c : Dev nD) (t : Fin cfg2.N) :
    (dat2 (F := Ideal) V c).flushed 5 t
      = ((cfg2.win 5).blk t).view.read (Elt Ideal)
          (Cert.Pool.combine (V c main_v4) (V c main_v5) (V c main_v2) (V c main_v3) (V c main_arg2)) := by
  show (cfg2.win 5).cut (grid2.coords t) ((dat2 V c).after 5 t) = _
  rw [after2_5]
  unfold out2_5
  rw [View.canon_unit_zero hz3]
  simp only [View.ld_unit_zero (S := S64x256) hz2, View.ld_unit_zero (S := S128x256) hz2,
    View.ld_unit_zero (S := S256x256) hz2, View.ld_unit_zero (S := S256) hz1]
  funext j
  obtain ⟨p, s, g, rfl⟩ : ∃ (p : Fin 64) (s : Fin 128) (g : Fin 256), j = ix3 p s g := ⟨j 0, j 1, j 2, eq_ix3 j⟩
  refine (pay_apply (iblk2 V c 0 t) (iblk2 V c 2 t) (iblk2 V c 1 t) (iblk2 V c 3 t) (iblk2 V c 4 t) p s g).trans ?_
  rw [View.read_apply, emb5_apply t p s g]
  rw [combine_ix3]
  refine congrArg₂ (· + ·) (congrArg₂ (· + ·) (Finset.sum_congr rfl fun k _ => ?_) (Finset.sum_congr rfl fun k _ => ?_)) ?_
  · rw [blk0_apply V c t p k, blk2_apply V c t k g]
  · rw [blk1_apply V c t s k, blk3_apply V c t k g]
  · exact blk4_apply V c t g

/-- An index of the result is in point t's block iff each coordinate is in the block's range on its axis. -/
private theorem mem_blk5 (t : Fin cfg2.N) (i : S512x512x256.Idx) :
    i ∈ ((cfg2.win 5).blk t).view.set ↔ ∀ a : Fin 3, win2_5.index t a * S64x128x256.size a ≤ (i a).val ∧ (i a).val < win2_5.index t a * S64x128x256.size a + S64x128x256.size a := by
  show i ∈ ((View.whole main_v6).slice (win2_5.rect t)).set ↔ _
  rw [View.set_slice_whole, Rect.mem_set_unit]
  exact Iff.rfl

/-- Every index (i₀, i₁, i₂) of the result lies in the block of the point with coordinates (i₀ / 64, i₁ / 128). -/
private theorem cover (i : S512x512x256.Idx) :
    ∃ t : Fin cfg2.N, (cfg2.win 5).flush t = true ∧ i ∈ ((cfg2.win 5).blk t).view.set := by
  have h0 : (i 0).val < 512 := (i 0).isLt
  have h1 : (i 1).val < 512 := (i 1).isLt
  have h2 : (i 2).val < 256 := (i 2).isLt
  have hN : cfg2.N = 32 := N_2
  let t : Fin cfg2.N := ⟨4 * ((i 0).val / 64) + (i 1).val / 128, by rw [hN]; omega⟩
  have ht : t.val = 4 * ((i 0).val / 64) + (i 1).val / 128 := rfl
  obtain ⟨-, -, -, -, -, -, -, -, -, e0, e1, e2⟩ := idx_facts t
  refine ⟨t, flush2_5 t, ?_⟩
  rw [mem_blk5]
  intro a
  match a with
  | ⟨0, _⟩ => show win2_5.index t (0 : Fin 3) * 64 ≤ (i 0).val ∧ (i 0).val < win2_5.index t (0 : Fin 3) * 64 + 64; rw [e0, ht]; omega
  | ⟨1, _⟩ => show win2_5.index t (1 : Fin 3) * 128 ≤ (i 1).val ∧ (i 1).val < win2_5.index t (1 : Fin 3) * 128 + 128; rw [e1, ht]; omega
  | ⟨2, _⟩ => show win2_5.index t (2 : Fin 3) * 256 ≤ (i 2).val ∧ (i 2).val < win2_5.index t (2 : Fin 3) * 256 + 256; rw [e2]; omega

/-- After the third pass the result array holds the two projections added across plus the bias, of the arrays the
    pass finds. -/
theorem arr_eq (c : Dev nD) :
    (dat2 (F := Ideal) V c).arrAt 5 cfg2.N
      = Cert.Pool.combine (V c main_v4) (V c main_v5) (V c main_v2) (V c main_v3) (V c main_arg2) :=
  (dat2 (F := Ideal) V c).arrAt_eq_of_cover 5 _ (fun t _ => flushed_eq V c t) cover

end Cert.KernelIdeal.Final

end
-- ==== Proof.KernelValue.lean ====
/-
  What the kernel's program leaves in its result array, as a function of the three argument arrays.

  Before the first pass the host slices `W` into its left and right halves and transposes each: the two [256, 256]
  arrays the third pass multiplies by hold `W[g, f]` and `W[g, 256 + f]` at (f, g). Neither `x`, `W` nor `b` is written
  by anything. The first pass leaves the row maxima of `x`, the second (which finds `x` as launched: the first pass only
  reads it) the column maxima, and the third pass, which finds both pooled arrays, the two transposed halves and `b`,
  leaves the two projections added across plus the bias. Walking the contents back from the last boundary to the
  launch, region by region, the result array holds the specification's `out x W b`.
-/
import proofs.«101535_j28578712388215_1_alg».proof.Proof.Gen.KernelIdeal.Frame
import proofs.«101535_j28578712388215_1_alg».proof.Proof.Spec
import proofs.«101535_j28578712388215_1_alg».proof.Proof.Pool0
import proofs.«101535_j28578712388215_1_alg».proof.Proof.Pool1
import proofs.«101535_j28578712388215_1_alg».proof.Proof.Final
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

/-! ## The host stretch before the first pass -/

/-- The host stretch does not write `x`. -/
theorem entry_x (c : Dev nD) : V1 m ρ c main_arg0 = m ((c : Thread nD τ).loc main_arg0) := by
  show StableHlo.after hostOps0 (W0 m ρ c) (Proc.devRef .tc main_arg0) = _
  after_results

/-- The host stretch does not write `b`. -/
theorem entry_b (c : Dev nD) : V1 m ρ c main_arg2 = m ((c : Thread nD τ).loc main_arg2) := by
  show StableHlo.after hostOps0 (W0 m ρ c) (Proc.devRef .tc main_arg2) = _
  after_results

/-- The transposed left half of `W`: at (f, g) it holds `W[g, f]`. -/
theorem entry_left (c : Dev nD) : V1 m ρ c main_v2 = Cert.Pool.leftT (m ((c : Thread nD τ).loc main_arg1)) := by
  have e : V1 m ρ c main_v2 = transpose S256x256 [1, 0]
      (extractStridedSlice S256x256 ![0, 0] (m ((c : Thread nD τ).loc main_arg1)) slices_S256x512_S256x256_0_0)
      transposes_S256x256_S256x256_1_0 := by
    show StableHlo.after hostOps0 (W0 m ρ c) (Proc.devRef .tc main_v2) = _
    after_results
  rw [e]
  funext j
  obtain ⟨p, q, rfl⟩ : ∃ (p : Fin 256) (q : Fin 256), j = ix2 p q := ⟨j 0, j 1, eq_ix2 j⟩
  rw [transpose_apply [1, 0] _ transposes_S256x256_S256x256_1_0 (ix2 p q) (ix2 q p)
    (fun b => match b with | ⟨0, _⟩ => rfl | ⟨1, _⟩ => rfl)]
  exact extractStridedSlice_apply ![0, 0] _ slices_S256x512_S256x256_0_0 (ix2 q p)
    (ix2 q (⟨p.val, by have := p.isLt; omega⟩ : Fin 512))
    (fun a => match a with
      | ⟨0, _⟩ => by show q.val = 0 + q.val; omega
      | ⟨1, _⟩ => by show p.val = 0 + p.val; omega)

/-- The transposed right half of `W`: at (f, g) it holds `W[g, 256 + f]`. -/
theorem entry_right (c : Dev nD) : V1 m ρ c main_v3 = Cert.Pool.rightT (m ((c : Thread nD τ).loc main_arg1)) := by
  have e : V1 m ρ c main_v3 = transpose S256x256 [1, 0]
      (extractStridedSlice S256x256 ![0, 256] (m ((c : Thread nD τ).loc main_arg1)) slices_S256x512_S256x256_0_256)
      transposes_S256x256_S256x256_1_0 := by
    show StableHlo.after hostOps0 (W0 m ρ c) (Proc.devRef .tc main_v3) = _
    after_results
  rw [e]
  funext j
  obtain ⟨p, q, rfl⟩ : ∃ (p : Fin 256) (q : Fin 256), j = ix2 p q := ⟨j 0, j 1, eq_ix2 j⟩
  rw [transpose_apply [1, 0] _ transposes_S256x256_S256x256_1_0 (ix2 p q) (ix2 q p)
    (fun b => match b with | ⟨0, _⟩ => rfl | ⟨1, _⟩ => rfl)]
  exact extractStridedSlice_apply ![0, 256] _ slices_S256x512_S256x256_0_256 (ix2 q p)
    (ix2 q (⟨256 + p.val, by have := p.isLt; omega⟩ : Fin 512))
    (fun a => match a with
      | ⟨0, _⟩ => by show q.val = 0 + q.val; omega
      | ⟨1, _⟩ => by show 256 + p.val = 256 + p.val; rfl)

/-! ## What each later region finds -/

/-- The second pass finds `x` as launched: the first pass reads it through an input window only. -/
theorem second_x (c : Dev nD) : V2 m ρ c main_arg0 = m ((c : Thread nD τ).loc main_arg0) :=
  ((W2_arr m ρ c 0).trans (((dat0 (V1 m ρ) c).arrAt_in 0 rfl _).trans (A_eq0 (V1 m ρ) c 0))).trans (entry_x m ρ c)

/-- The third pass finds the row maxima of `x` where the first pass left them. -/
theorem third_rows (c : Dev nD) : V3 m ρ c main_v4 = Cert.Pool.rowMaxArr (m ((c : Thread nD τ).loc main_arg0)) :=
  (W3_of_ne m ρ c main_v4 (by decide)).trans
    ((W2_arr m ρ c 1).trans ((Cert.KernelIdeal.Pool0.arr_eq (V1 m ρ) c).trans (congrArg Cert.Pool.rowMaxArr (entry_x m ρ c))))

/-- The third pass finds the column maxima of `x` where the second pass left them. -/
theorem third_cols (c : Dev nD) : V3 m ρ c main_v5 = Cert.Pool.colMaxArr (m ((c : Thread nD τ).loc main_arg0)) :=
  (W3_arr m ρ c 1).trans ((Cert.KernelIdeal.Pool1.arr_eq (V2 m ρ) c).trans (congrArg Cert.Pool.colMaxArr (second_x m ρ c)))

/-- The third pass finds the transposed halves of `W` and `b` as the host stretch left them. -/
theorem third_left (c : Dev nD) : V3 m ρ c main_v2 = Cert.Pool.leftT (m ((c : Thread nD τ).loc main_arg1)) :=
  (W3_of_ne m ρ c main_v2 (by decide)).trans ((W2_of_ne m ρ c main_v2 (by decide)).trans (entry_left m ρ c))
theorem third_right (c : Dev nD) : V3 m ρ c main_v3 = Cert.Pool.rightT (m ((c : Thread nD τ).loc main_arg1)) :=
  (W3_of_ne m ρ c main_v3 (by decide)).trans ((W2_of_ne m ρ c main_v3 (by decide)).trans (entry_right m ρ c))
theorem third_b (c : Dev nD) : V3 m ρ c main_arg2 = m ((c : Thread nD τ).loc main_arg2) :=
  (W3_of_ne m ρ c main_arg2 (by decide)).trans ((W2_of_ne m ρ c main_arg2 (by decide)).trans (entry_b m ρ c))

/-! ## The result array -/

/-- After the last region the result array holds the specification's function of the three argument arrays. -/
theorem result_eq (c : Dev nD) :
    W4 m ρ c (Proc.devRef .tc main_v6)
      = Cert.Pool.out (m ((c : Thread nD τ).loc main_arg0)) (m ((c : Thread nD τ).loc main_arg1)) (m ((c : Thread nD τ).loc main_arg2)) := by
  refine (W4_arr m ρ c 5).trans ((Cert.KernelIdeal.Final.arr_eq (V3 m ρ) c).trans ?_)
  rw [third_rows m ρ c, third_cols m ρ c, third_left m ρ c, third_right m ρ c, third_b m ρ c]
  rfl

end Cert.KernelIdeal.KernelValue

end
-- ==== Proof.RefValue.lean ====
import proofs.«101535_j28578712388215_1_alg».proof.Proof.Gen.ReferenceIdeal.Run
import proofs.«101535_j28578712388215_1_alg».proof.Proof.Gen.ReferenceIdeal.Read
import proofs.«101535_j28578712388215_1_alg».proof.Proof.Spec
import proofs.«101535_j28578712388215_1_alg».proof.Proof.LibKeepdims
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-! ## The two maxima over one axis

  A maximum of x : [512, 512, 256] over its middle axis, read at (t, f), runs over the entries (t, s, f) for every s;
  over its first axis, read at (s, f), over the entries (t, s, f) for every t. Both start from the word of −∞, which
  denotes −∞, the least extended real, so each is the maximum from ⊥ of those 512 entries. -/

/-- Dropping the middle axis of [512, 512, 256] leaves [512, 256]. -/
private theorem red1 : S512x512x256.Reduces [1] S512x256 := by decide

/-- Dropping the first axis of [512, 512, 256] leaves [512, 256]. -/
private theorem red0 : S512x512x256.Reduces [0] S512x256 := by decide

/-- Inserting s on the middle axis of (t, f) gives (t, s, f). -/
private theorem lift1 (t : Fin 512) (f : Fin 256) (s : Fin 512) :
    red1.lift (ix2 t f) s = ix3 t s f :=
  funext fun a => Fin.ext (match a with | ⟨0, _⟩ => rfl | ⟨1, _⟩ => rfl | ⟨2, _⟩ => rfl)

/-- Inserting t on the first axis of (s, f) gives (t, s, f). -/
private theorem lift0 (s : Fin 512) (f : Fin 256) (t : Fin 512) :
    red0.lift (ix2 s f) t = ix3 t s f :=
  funext fun a => Fin.ext (match a with | ⟨0, _⟩ => rfl | ⟨1, _⟩ => rfl | ⟨2, _⟩ => rfl)

/-- The maximum over the middle axis, at (t, f), is the maximum from −∞ of x[t, ·, f]. -/
private theorem v0_apply (x0 : (⟨S512x512x256, .f32⟩ : BufTy).Contents (Elt Ideal)) (t : Fin 512) (f : Fin 256) :
    val_main_v0 (F := Ideal) x0 (ix2 t f) = Cert.Pool.rowMax x0 t f := by
  unfold val_main_v0
  refine (Host.reduce_eq_fold_single (FloatOps.maximumf (F := Ideal) (φ := .f32)) x0 (val_main_cst (F := Ideal))
    reducesTo_S512x512x256_S512x256_d1 red1 h_S_ (ix2 t f)).trans ?_
  rw [val_main_cst_apply]
  show (Finset.univ : Finset (Fin 512)).fold max (Ideal.ofBits .f32 0xFF800000#32) (x0 ∘ red1.lift (ix2 t f)) = _
  rw [Cert.LibKeepdims.ofBits_neg_inf]
  exact congrArg (fun g : Fin 512 → EReal => (Finset.univ : Finset (Fin 512)).fold max ⊥ g)
    (funext fun s => congrArg x0 (lift1 t f s))

/-- The maximum over the first axis, at (s, f), is the maximum from −∞ of x[·, s, f]. -/
private theorem v1_apply (x0 : (⟨S512x512x256, .f32⟩ : BufTy).Contents (Elt Ideal)) (s : Fin 512) (f : Fin 256) :
    val_main_v1 (F := Ideal) x0 (ix2 s f) = Cert.Pool.colMax x0 s f := by
  unfold val_main_v1
  refine (Host.reduce_eq_fold_single (FloatOps.maximumf (F := Ideal) (φ := .f32)) x0 (val_main_cst_0 (F := Ideal))
    reducesTo_S512x512x256_S512x256_d0 red0 h_S_ (ix2 s f)).trans ?_
  rw [val_main_cst_0_apply]
  show (Finset.univ : Finset (Fin 512)).fold max (Ideal.ofBits .f32 0xFF800000#32) (x0 ∘ red0.lift (ix2 s f)) = _
  rw [Cert.LibKeepdims.ofBits_neg_inf]
  exact congrArg (fun g : Fin 512 → EReal => (Finset.univ : Finset (Fin 512)).fold max ⊥ g)
    (funext fun t => congrArg x0 (lift0 s f t))

/-! ## Where each operand is read

  The result at (t, s, g) reads the first product at (t, g) and the second at (s, g), the broadcasts in between only
  dropping or repeating a coordinate; term k of the first product reads the row maxima at (t, k) and W at (g, k), term
  k of the second the column maxima at (s, k) and W at (g, 256 + k); the bias is read at g. -/

private theorem lidx4 (t s : Fin 512) (g k : Fin 256) :
    lidx_main_v4 (idx_main_v6 (idx_main_v8 (ix3 t s g))) k = ix2 t k :=
  funext fun a => Fin.ext (by match a with | ⟨0, _⟩ => rfl | ⟨1, _⟩ => rfl)

private theorem ridx4 (t s : Fin 512) (g k : Fin 256) :
    idx_main_v2 (ridx_main_v4 (idx_main_v6 (idx_main_v8 (ix3 t s g))) k)
      = ix2 g (⟨k.val, by have := k.isLt; omega⟩ : Fin 512) :=
  funext fun a => Fin.ext (by match a with | ⟨0, _⟩ => rfl | ⟨1, _⟩ => rfl)

private theorem lidx5 (t s : Fin 512) (g k : Fin 256) :
    lidx_main_v5 (idx_main_v7 (idx_main_v9 (ix3 t s g))) k = ix2 s k :=
  funext fun a => Fin.ext (by match a with | ⟨0, _⟩ => rfl | ⟨1, _⟩ => rfl)

private theorem ridx5 (t s : Fin 512) (g k : Fin 256) :
    idx_main_v3 (ridx_main_v5 (idx_main_v7 (idx_main_v9 (ix3 t s g))) k)
      = ix2 g (⟨256 + k.val, by have := k.isLt; omega⟩ : Fin 512) :=
  funext fun a => Fin.ext (by match a with | ⟨0, _⟩ => rfl | ⟨1, _⟩ => rfl)

private theorem bidx (t s : Fin 512) (g : Fin 256) :
    idx_main_v11 (idx_main_v12 (ix3 t s g)) = ix1 g :=
  funext fun a => Fin.ext (by match a with | ⟨0, _⟩ => rfl)

/-- The reference's result is the specification's function of the three argument arrays. -/
theorem ref_eq (x0 : (⟨S512x512x256, .f32⟩ : BufTy).Contents (Elt Ideal)) (x1 : (⟨S256x512, .f32⟩ : BufTy).Contents (Elt Ideal))
    (x2 : (⟨S256, .f32⟩ : BufTy).Contents (Elt Ideal)) :
    val_main_v13 (F := Ideal) x0 x1 x2 = Cert.Pool.out x0 x1 x2 := by
  funext i
  obtain ⟨t, s, g, rfl⟩ : ∃ (t : Fin 512) (s : Fin 512) (g : Fin 256), i = ix3 t s g := ⟨i 0, i 1, i 2, eq_ix3 i⟩
  rw [val_main_v13_apply, val_main_v10_apply, val_main_v8_apply, val_main_v6_apply, val_main_v4_apply,
    val_main_v9_apply, val_main_v7_apply, val_main_v5_apply, val_main_v12_apply, val_main_v11_apply, bidx]
  rw [Ideal.addf_def, Ideal.addf_def]
  unfold Cert.Pool.out Cert.Pool.combine
  -- the three summands agree one by one: the two products term by term, the bias as it stands
  refine congrArg₂ (· + ·) (congrArg₂ (· + ·) (Finset.sum_congr rfl fun k _ => ?_) (Finset.sum_congr rfl fun k _ => ?_)) rfl
  · rw [lidx4, v0_apply, val_main_v2_apply, ridx4]
    rfl
  · rw [lidx5, v1_apply, val_main_v3_apply, ridx5]
    rfl

end Cert.ReferenceIdeal.RefValue

end
-- ==== Proof.lean ====
/-
  The certificate of the pooled-projection kernel against its jnp reference.

  The kernel makes three passes. The first takes, for every (t, f), the maximum of x[t, ·, f] over the middle axis,
  eight blocks of 64 at a time into an accumulator reset to −∞; the second the maximum of x[·, s, f] over the first axis
  the same way; the third multiplies the row maxima by the transposed left half of W and the column maxima by the
  transposed right half, adds the two across and adds the bias. The reference takes the two maxima whole, contracts
  them with the two halves of W, and adds the same way.

  Over the extended reals both end at one function of (x, W, b) (`Cert.Pool.out`, proof/Proof/Spec.lean): a maximum
  from −∞ over an axis is the fold of the maxima of its consecutive blocks (`max` is commutative, associative and
  idempotent with −∞ its unit); a change of float format is the identity; a matrix product into a zero accumulator
  is the plain sum of products, and transposing a half of W first is reading it at swapped coordinates. No step
  needs the entries to be finite, so the precondition is never opened.

  The frames of the two kernel programs are the generated ones; the reference's frame is its run with the result
  dropped; nothing was rewritten by the idealization, so `preserves` is trivial.
-/
import proofs.«101535_j28578712388215_1_alg».proof.Defs
import proofs.«101535_j28578712388215_1_alg».proof.Proof.Gen.Kernel
import proofs.«101535_j28578712388215_1_alg».proof.Proof.Gen.Kernel.Frame
import proofs.«101535_j28578712388215_1_alg».proof.Proof.Gen.KernelIdeal
import proofs.«101535_j28578712388215_1_alg».proof.Proof.Gen.KernelIdeal.Frame
import proofs.«101535_j28578712388215_1_alg».proof.Proof.Gen.ReferenceIdeal
import proofs.«101535_j28578712388215_1_alg».proof.Proof.Gen.ReferenceIdeal.Run
import proofs.«101535_j28578712388215_1_alg».proof.Proof.Gen.ReferenceIdeal.Read
import proofs.«101535_j28578712388215_1_alg».proof.Proof.Gen.Pre_finite_inputs
import proofs.«101535_j28578712388215_1_alg».proof.Proof.Spec
import proofs.«101535_j28578712388215_1_alg».proof.Proof.RunMain
import proofs.«101535_j28578712388215_1_alg».proof.Proof.KernelValue
import proofs.«101535_j28578712388215_1_alg».proof.Proof.RefValue
import Idealize.ShloMosaic.Adequacy
import Idealize.ShloMosaic.Init

noncomputable section

namespace Cert.Proof

open Idealize.ShloMosaic Idealize.SL.Sem

theorem frame_kernel [hPre : Cert.Pre_finite_inputs.Facts] [hK : Cert.Kernel.Facts] : Cert.frame_Kernel :=
  fun m ρ _ => Cert.Kernel.Gen.frame m ρ

theorem frame_kernelIdeal [hPre : Cert.Pre_finite_inputs.Facts] [hK : Cert.KernelIdeal.Facts] : Cert.frame_KernelIdeal :=
  fun m ρ _ => Cert.KernelIdeal.Gen.frame m ρ

/-- The reference's frame is its run with the result dropped. -/
theorem frame_referenceIdeal [hPre : Cert.Pre_finite_inputs.Facts] [hR : Cert.ReferenceIdeal.Facts] : Cert.frame_ReferenceIdeal :=
  fun m ρ _ => (θ_run Cert.ReferenceIdeal.defs _ _).mono (fun _ h c => (h c).2) (Cert.ReferenceIdeal.Value.run (F := Ideal) m ρ)

/-- Both idealized programs end with the result array at `Cert.Pool.out` of the arguments: the kernel's by its three
    regions read back from the last boundary to the launch, the reference's by its sixteen operations read at an
    index; the arguments agree, so the two results are one array. -/
theorem algebraic [hPre : Cert.Pre_finite_inputs.Facts] [hK : Cert.KernelIdeal.Facts] [hR : Cert.ReferenceIdeal.Facts] :
    Cert.algebraic_KernelIdeal_ReferenceIdeal := by
  intro m ρ m' ρ' _ hagree
  refine ⟨fun c => Cert.Pool.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KernelValue.result_eq m ρ c), (h c).2⟩)
      (Cert.KernelIdeal.RunMain.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, Cert.ReferenceIdeal.RefValue.ref_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
